-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel

variable [Facts]

def fn {F : FTy → Type} [FloatOps F] (main_arg0 : FVec F S8192x4 .f32) (main_arg1 : FVec F S8192x4 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  main_v8
-- ==== Kernel.lean ====
abbrev S8192x4 : Shape := ⟨2, ![8192, 4]⟩
abbrev S4 : Shape := ⟨1, ![4]⟩
abbrev S1x4 : Shape := ⟨2, ![1, 4]⟩
abbrev S8192x1 : Shape := ⟨2, ![8192, 1]⟩
abbrev S1024x4 : Shape := ⟨2, ![1024, 4]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S1 : Shape := ⟨1, ![1]⟩

abbrev nBuf : Space → Nat
  | .hbm => 15
  | .vmem => 7
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S4, .f32⟩
  | .hbm, ⟨3, _⟩ => ⟨S1x4, .f32⟩
  | .hbm, ⟨4, _⟩ => ⟨S8192x4, .f32⟩
  | .hbm, ⟨5, _⟩ => ⟨S8192x4, .f32⟩
  | .hbm, ⟨6, _⟩ => ⟨S1x4, .f32⟩
  | .hbm, ⟨7, _⟩ => ⟨S8192x4, .f32⟩
  | .hbm, ⟨8, _⟩ => ⟨S8192x4, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .local _ .vmem, ⟨0, _⟩ => ⟨S1024x4, .f32⟩
  | .local _ .vmem, ⟨1, _⟩ => ⟨S1024x4, .f32⟩
  | .local _ .vmem, ⟨2, _⟩ => ⟨S1024x4, .f32⟩
  | .local _ .vmem, ⟨3, _⟩ => ⟨S1024x4, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  reduces_S1024x4_S1024 : S1024x4.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  h_S_ : 0 < S_.numel
  shapeCasts_S_S1 : S_.ShapeCasts S1
  dot_S1024x4_S1024x4_S1024x1024_1_1_0_0_n_n_wf : DotDims.WF S1024x4 S1024x4 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8192x4.size a
  hwx0_0 : ∀ i : grid0.Coords, EltTy.bits .f32 = 32 ∨ (Rect.block (s := S8192x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S8192x4.size a
  hwx0_1 : ∀ i : grid0.Coords, EltTy.bits .f32 = 32 ∨ (Rect.block (s := S8192x4) S1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf

abbrev win0_0 : Pipeline.Window sig grid0 :=
  Pipeline.Window.ofSpec (Memref.whole main_v2) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4 : Shape := ⟨2, ![8192, 4]⟩
abbrev S4 : Shape := ⟨1, ![4]⟩
abbrev S1x4 : Shape := ⟨2, ![1, 4]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S1 : Shape := ⟨1, ![1]⟩

abbrev nBuf : Space → Nat
  | .hbm => 32
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S4, .f32⟩
  | .hbm, ⟨3, _⟩ => ⟨S1x4, .f32⟩
  | .hbm, ⟨4, _⟩ => ⟨S8192x4, .f32⟩
  | .hbm, ⟨5, _⟩ => ⟨S8192x4, .f32⟩
  | .hbm, ⟨6, _⟩ => ⟨S1x4, .f32⟩
  | .hbm, ⟨7, _⟩ => ⟨S8192x4, .f32⟩
  | .hbm, ⟨8, _⟩ => ⟨S8192x4, .f32⟩
  | .hbm, ⟨9, _⟩ => ⟨S8192x4, .f32⟩
  | .hbm, ⟨10, _⟩ => ⟨S_, .f32⟩
  | .hbm, ⟨11, _⟩ => ⟨S8192, .f32⟩
  | .hbm, ⟨12, _⟩ => ⟨S8192x4, .f32⟩
  | .hbm, ⟨13, _⟩ => ⟨S_, .f32⟩
  | .hbm, ⟨14, _⟩ => ⟨S8192, .f32⟩
  | .hbm, ⟨15, _⟩ => ⟨S8192x8192, .f32⟩
  | .hbm, ⟨16, _⟩ => ⟨S8192x1, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  reducesTo_S8192x4_S8192_d1 : S8192x4.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  shapeCasts_S_S1 : S_.ShapeCasts S1
  dot_S8192x4_S8192x4_S8192x8192_1_1_0_0_n_n_wf : DotDims.WF S8192x4 S8192x4 S8192x8192 [1] [1] [0] [0] [] []

variable [Facts₀]

def dot_S8192x4_S8192x4_S8192x8192_1_1_0_0_n_n : DotDims S8192x4 S8192x4 S8192x8192 where
  lhsContracting := [1]
  rhsContracting := [1]
  lhsNonContracting := [0]
  rhsNonContracting := [0]
  lhsBatch := []
  rhsBatch := []
  wf := dot_S8192x4_S8192x4_S8192x8192_1_1_0_0_n_n_wf

class Facts : Prop extends Facts₀ where

variable [Facts]
-- ==== Proof.Pieces.lean ====
/-
  What one run of the kernel body leaves in the column it carries between grid points and in its output block, as values: the
  body's stores cover those buffers whole, so each ends holding the last store's value — the update `k0_pay2` of the two
  loaded input blocks over the column's earlier contents (over the column of +∞ where the body resets it first).
-/
import proofs.«154969_j63127429316932_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- Where the row-block index is 0 the body first stores +∞ over the whole carried column and then the update of it: what
    the column ends holding is the update of the two loaded blocks over the column of +∞. -/
theorem scratch_A (c : Dev nD) (i : grid0.Coords) (arg2 : Memref sig .tc .vmem S1024x4 .f32) (harg2 : arg2.IsWhole) (arg3 : Memref sig .tc .vmem S1024x4 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x4 .f32) (x1 : Vec F S1024x4 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg5.read_unread, View.ld_unit_zero (S := S1024x4) hz, View.ld_unit_zero (S := S1024x1) hz]

/-- At the other column blocks but the last the body stores the update of the two loaded blocks over what the carried
    column held before. -/
theorem scratch_B (c : Dev nD) (i : grid0.Coords) (arg2 : Memref sig .tc .vmem S1024x4 .f32) (harg2 : arg2.IsWhole) (arg3 : Memref sig .tc .vmem S1024x4 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x4 .f32) (x1 : Vec F S1024x4 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x4) hz, View.ld_unit_zero (S := S1024x1) hz]

/-- At the last column block the carried column is updated the same way, -/
theorem scratch_C (c : Dev nD) (i : grid0.Coords) (arg2 : Memref sig .tc .vmem S1024x4 .f32) (harg2 : arg2.IsWhole) (arg3 : Memref sig .tc .vmem S1024x4 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4 .f32) (x1 : Vec F S1024x4 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x4) hz, View.ld_unit_zero (S := S1024x1) hz]

/-- and the output block is stored from the column just updated: it holds the same update. -/
theorem out_C (c : Dev nD) (i : grid0.Coords) (arg2 : Memref sig .tc .vmem S1024x4 .f32) (harg2 : arg2.IsWhole) (arg3 : Memref sig .tc .vmem S1024x4 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4 .f32) (x1 : Vec F S1024x4 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x4) hz, View.ld_unit_zero (S := S1024x1) hz]

end Cert.KernelIdeal.Pieces

end
-- ==== Proof.Nearest.lean ====
/-
  The mathematics both programs compute, over the extended reals: for two point clouds `A` (N rows) and `B` (M rows) of
  4-vectors, the squared distance of two rows written as `|u|² + |v|² - 2 (u · v)`, the nearest such distance from a row of
  `A` to the rows of `B` (a minimum started at +∞), and the largest nearest distance over the rows of `A` (a maximum started
  at -∞): the one-sided squared Hausdorff distance. A minimum over a set is characterised by its lower bounds and a maximum by
  its upper bounds, so two minima (or maxima) taken in different groupings agree as soon as they have the same bounds.
-/
import Idealize.ShloMosaic.PureOps.Ideal
import Idealize.ShloMosaic.PureOps.Ideal.Laws
import Idealize.ShloMosaic.Lib.ValueIdx
import Mathlib.Data.Finset.Fold

noncomputable section

namespace Cert.Nearest

open Idealize.ShloMosaic Idealize.ShloMosaic.ValueIdx

/-- The f32 word of +∞, the value every minimum starts from. -/
abbrev pinf : EReal := Ideal.ofBits .f32 0x7F800000#32
/-- The f32 word of -∞, the value the maximum starts from. -/
abbrev ninf : EReal := Ideal.ofBits .f32 0xFF800000#32
/-- The f32 word of 2. -/
abbrev two : EReal := Ideal.ofBits .f32 0x40000000#32
/-- The f32 word of 1. -/
abbrev one : EReal := Ideal.ofBits .f32 0x3F800000#32

/-- The squared distance of two 4-vectors in its expanded form `|u|² + |v|² - 2 (u · v)`. -/
def sqd (u v : Fin 4 → EReal) : EReal := ((∑ d, u d * u d) + (∑ d, v d * v d)) - two * (∑ d, u d * v d)

/-- Row `p` of an `n × 4` matrix. -/
def row {n : ℕ} (X : (⟨2, ![n, 4]⟩ : Shape).Idx → EReal) (p : Fin n) : Fin 4 → EReal := fun d => X (ix2 p d)

/-- The least squared distance from the vector `u` to the rows of `B`, started at +∞. -/
def nearestTo {M : ℕ} (B : (⟨2, ![M, 4]⟩ : Shape).Idx → EReal) (u : Fin 4 → EReal) : EReal :=
  (Finset.univ : Finset (Fin M)).fold min pinf (fun m => sqd u (row B m))

/-- The largest, over the rows of `A`, of the least squared distance to the rows of `B`, started at -∞. -/
def farthestNearest {N M : ℕ} (A : (⟨2, ![N, 4]⟩ : Shape).Idx → EReal) (B : (⟨2, ![M, 4]⟩ : Shape).Idx → EReal) : EReal :=
  (Finset.univ : Finset (Fin N)).fold max ninf (fun n => nearestTo B (row A n))

/-- The f32 words of the channel weights (1, 1, 1, 1/2) both programs scale the clouds by. -/
def weightWord : Fin 4 → BitVec 32 := ![0x3F800000#32, 0x3F800000#32, 0x3F800000#32, 0x3F000000#32]

/-- A cloud with every row scaled channel by channel by the weights. -/
def weighted {n : ℕ} (X : (⟨2, ![n, 4]⟩ : Shape).Idx → EReal) : (⟨2, ![n, 4]⟩ : Shape).Idx → EReal :=
  fun i => X i * Ideal.ofBits .f32 (weightWord ⟨(i 1).val, idx2_lt1 i⟩)

/-- What both programs return: that distance times the word 1, as a one-element vector. -/
def result {N M : ℕ} (A : (⟨2, ![N, 4]⟩ : Shape).Idx → EReal) (B : (⟨2, ![M, 4]⟩ : Shape).Idx → EReal) :
    (⟨1, ![1]⟩ : Shape).Idx → EReal := fun _ => farthestNearest A B * one

/-- The lower bounds of the nearest distance: those of +∞ and of every row's distance. -/
theorem le_nearestTo_iff {M : ℕ} (B : (⟨2, ![M, 4]⟩ : Shape).Idx → EReal) (u : Fin 4 → EReal) (c : EReal) :
    c ≤ nearestTo B u ↔ c ≤ pinf ∧ ∀ m : Fin M, c ≤ sqd u (row B m) := by
  unfold nearestTo
  rw [Finset.le_fold_min]
  simp only [Finset.mem_univ, forall_true_left]

/-- A value with the lower bounds of the nearest distance is the nearest distance. -/
theorem eq_nearestTo_of_le_iff {M : ℕ} (B : (⟨2, ![M, 4]⟩ : Shape).Idx → EReal) (u : Fin 4 → EReal) (x : EReal)
    (h : ∀ c : EReal, c ≤ x ↔ c ≤ pinf ∧ ∀ m : Fin M, c ≤ sqd u (row B m)) : x = nearestTo B u :=
  eq_of_forall_le_iff fun c => (h c).trans (le_nearestTo_iff B u c).symm

/-- A maximum started at -∞ over any finite index type whose values are the nearest distances of the rows of `A`, each row
    met, is the largest nearest distance: the two have the same upper bounds. -/
theorem fold_max_eq_farthestNearest {N M : ℕ} (A : (⟨2, ![N, 4]⟩ : Shape).Idx → EReal) (B : (⟨2, ![M, 4]⟩ : Shape).Idx → EReal)
    {ι : Type} [Fintype ι] (g : ι → EReal) (r : ι → Fin N) (hg : ∀ i, g i = nearestTo B (row A (r i)))
    (hr : Function.Surjective r) :
    (Finset.univ : Finset ι).fold max ninf g = farthestNearest A B := by
  refine eq_of_forall_ge_iff fun c => ?_
  unfold farthestNearest
  rw [Finset.fold_max_le, Finset.fold_max_le]
  refine and_congr Iff.rfl ⟨fun h n _ => ?_, fun h i _ => ?_⟩
  · obtain ⟨i, rfl⟩ := hr n
    rw [← hg]; exact h i (Finset.mem_univ _)
  · rw [hg]; exact h (r i) (Finset.mem_univ _)

end Cert.Nearest

end
-- ==== Proof.Blocks.lean ====
/-
  How the kernel's windows read the two scaled clouds. The host scales each input cloud channel by channel by (1, 1, 1, 1/2)
  before the kernel runs; at grid point `t` (row block `t / 8`, column block `t % 8`) the first window's block is rows
  `1024 (t / 8) + p` of the first scaled cloud and the second window's block rows `1024 (t % 8) + q` of the second.
-/
import proofs.«154969_j63127429316932_1_alg».proof.Proof.Gen.KernelIdeal.Frame
import proofs.«154969_j63127429316932_1_alg».proof.Proof.Nearest
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.Nearest

variable (m : (ℓ : Loc nD τ sig) → Buf (Elt Ideal) ℓ)

/-- The first scaled cloud as the kernel finds it, -/
abbrev cloudA (c : Dev nD) : Vec Ideal S8192x4 .f32 := V m c main_v2
/-- the second, -/
abbrev cloudB (c : Dev nD) : Vec Ideal S8192x4 .f32 := V m c main_v5
/-- the first window's block at a grid point, -/
abbrev blockA (c : Dev nD) (t : Fin cfg0.N) : Vec Ideal S1024x4 .f32 := iblk m c 0 t
/-- and the second window's. -/
abbrev blockB (c : Dev nD) (t : Fin cfg0.N) : Vec Ideal S1024x4 .f32 := iblk m c 1 t

/-- The first window's block index is the point's row block, the second's its column block (decided over the 64 points). -/
theorem idxA : ∀ t : Fin cfg0.N, win0_0.index t 0 = t.val / 8 ∧ win0_0.index t 1 = 0 :=
  (by decide +kernel : ∀ t : Fin grid0.N, win0_0.index t 0 = t.val / 8 ∧ win0_0.index t 1 = 0)
theorem idxB : ∀ t : Fin cfg0.N, win0_1.index t 0 = t.val % 8 ∧ win0_1.index t 1 = 0 :=
  (by decide +kernel : ∀ t : Fin grid0.N, win0_1.index t 0 = t.val % 8 ∧ win0_1.index t 1 = 0)

/-- Row `p` of the first block at point `t` is row `1024 (t / 8) + p` of the first scaled cloud. -/
theorem blockA_apply (c : Dev nD) (t : Fin cfg0.N) (p : Fin 1024) (d : Fin 4) (r : Fin 8192) (hr : r.val = 1024 * (t.val / 8) + p.val) :
    blockA m c t (ix2 p d) = cloudA m c (ix2 r d) := by
  unfold blockA iblk
  rw [View.read_apply]
  show V m c main_v2 _ = V m c main_v2 _
  refine congrArg (V m c main_v2) (funext fun a => Fin.ext ?_)
  match a with
  | ⟨0, _⟩ => show win0_0.index t 0 * 1024 + 1 * p.val = r.val; rw [(idxA t).1, hr]; omega
  | ⟨1, _⟩ => show win0_0.index t 1 * 4 + 1 * d.val = d.val; rw [(idxA t).2]; omega

/-- Row `q` of the second block at point `t` is row `1024 (t % 8) + q` of the second scaled cloud. -/
theorem blockB_apply (c : Dev nD) (t : Fin cfg0.N) (q : Fin 1024) (d : Fin 4) (r : Fin 8192) (hr : r.val = 1024 * (t.val % 8) + q.val) :
    blockB m c t (ix2 q d) = cloudB m c (ix2 r d) := by
  unfold blockB iblk
  rw [View.read_apply]
  show V m c main_v5 _ = V m c main_v5 _
  refine congrArg (V m c main_v5) (funext fun a => Fin.ext ?_)
  match a with
  | ⟨0, _⟩ => show win0_1.index t 0 * 1024 + 1 * q.val = r.val; rw [(idxB t).1, hr]; omega
  | ⟨1, _⟩ => show win0_1.index t 1 * 4 + 1 * d.val = d.val; rw [(idxB t).2]; omega

/-- The same as rows. -/
theorem row_blockA (c : Dev nD) (t : Fin cfg0.N) (p : Fin 1024) (r : Fin 8192) (hr : r.val = 1024 * (t.val / 8) + p.val) :
    row (n := 1024) (blockA m c t) p = row (n := 8192) (cloudA m c) r :=
  funext fun d => blockA_apply m c t p d r hr
theorem row_blockB (c : Dev nD) (t : Fin cfg0.N) (q : Fin 1024) (r : Fin 8192) (hr : r.val = 1024 * (t.val % 8) + q.val) :
    row (n := 1024) (blockB m c t) q = row (n := 8192) (cloudB m c) r :=
  funext fun d => blockB_apply m c t q d r hr

/-- The host's constant of channel weights, broadcast over the rows, read at `(n, d)`: the weight of channel `d`. -/
theorem weights_apply (n : Fin 8192) (d : Fin 4) :
    broadcastInDim S8192x4 ![0, 1] Facts₀.bcast_S1x4_S8192x4_0_1 (broadcastInDim S1x4 ![1] Facts₀.bcast_S4_S1x4_1
        (fun i => FloatOps.ofBits (F := Ideal) .f32 (lit0 (S4.rowMajor i)))) (ix2 n d)
      = Ideal.ofBits .f32 (weightWord d) := by
  rw [broadcastInDim_apply ![0, 1] Facts₀.bcast_S1x4_S8192x4_0_1 _ (ix2 n d) (ix2 (0 : Fin 1) d)
      (fun a => by match a with | ⟨0, _⟩ => rfl | ⟨1, _⟩ => rfl),
    broadcastInDim_apply ![1] Facts₀.bcast_S4_S1x4_1 _ (ix2 (0 : Fin 1) d) (ix1 d)
      (fun a => by match a with | ⟨0, _⟩ => rfl)]
  show Ideal.ofBits .f32 (lit0 (S4.rowMajor (ix1 d))) = _
  refine congrArg (Ideal.ofBits .f32) ?_
  fin_cases d <;> rfl

/-- The first cloud as the kernel finds it is the first input scaled by the weights, -/
theorem cloudA_eq (c : Dev nD) : cloudA m c = weighted (n := 8192) (m ((c : Thread nD τ).loc main_arg0)) := by
  have e : (V m c main_v2 : S8192x4.Idx → EReal) = mulf (m ((c : Thread nD τ).loc main_arg0)) (broadcastInDim S8192x4 ![0, 1] Facts₀.bcast_S1x4_S8192x4_0_1 (broadcastInDim S1x4 ![1] Facts₀.bcast_S4_S1x4_1 (fun i => FloatOps.ofBits (F := Ideal) .f32 (lit0 (S4.rowMajor i))))) := by
    show StableHlo.after hostOps0 (fun b => m (c, b)) (Proc.devRef .tc main_v2) = _
    after_results
    rfl
  show (V m c main_v2 : S8192x4.Idx → EReal) = _
  rw [e]
  funext j
  obtain ⟨n, d, rfl⟩ : ∃ (n : Fin 8192) (d : Fin 4), j = ix2 n d := ⟨j 0, j 1, eq_ix2 j⟩
  rw [mulf_apply, weights_apply]
  rfl

/-- and the second the second input scaled the same way. -/
theorem cloudB_eq (c : Dev nD) : cloudB m c = weighted (n := 8192) (m ((c : Thread nD τ).loc main_arg1)) := by
  have e : (V m c main_v5 : S8192x4.Idx → EReal) = mulf (m ((c : Thread nD τ).loc main_arg1)) (broadcastInDim S8192x4 ![0, 1] Facts₀.bcast_S1x4_S8192x4_0_1 (broadcastInDim S1x4 ![1] Facts₀.bcast_S4_S1x4_1 (fun i => FloatOps.ofBits (F := Ideal) .f32 (lit0 (S4.rowMajor i))))) := by
    show StableHlo.after hostOps0 (fun b => m (c, b)) (Proc.devRef .tc main_v5) = _
    after_results
    rfl
  show (V m c main_v5 : S8192x4.Idx → EReal) = _
  rw [e]
  funext j
  obtain ⟨n, d, rfl⟩ : ∃ (n : Fin 8192) (d : Fin 4), j = ix2 n d := ⟨j 0, j 1, eq_ix2 j⟩
  rw [mulf_apply, weights_apply]
  rfl

end Cert.KernelIdeal.Blocks

end
-- ==== Proof.Payload.lean ====
/-
  The kernel body's arithmetic read at one row. The body keeps, for each of the 1024 rows of its first block, a running
  minimum. Its reset value is the word +∞ at every row. Its update computes, for the rows a of the first block and b of the
  second, the row sums of squares |a|² and |b|², the products a · b as one matrix product, the table
  |a|² + |b|² - 2 (a · b) of squared distances, each row's minimum over that table started at +∞, and the smaller of that
  minimum and the carried value. Each operation that is not elementwise (a shape cast that adds a unit axis, a broadcast
  along an axis, a transpose, a sum or a minimum along an axis, a matrix product contracted on one axis) is first read at
  an index written by its coordinates; the two theorems at the end read the reset value and the update through them.
-/
import proofs.«154969_j63127429316932_1_alg».proof.Proof.Gen.KernelIdeal.Skeleton
import proofs.«154969_j63127429316932_1_alg».proof.Proof.Nearest
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Payload

open Cert.KernelIdeal Cert.KernelIdeal.Gen Cert.KernelIdeal.Facts₀ Idealize.ShloMosaic Idealize.ShloMosaic.ValueIdx

variable [Cert.KernelIdeal.Facts]

/-! ## The layout operations at an index -/

/-- A vector of 1024 entries cast to a 1024 × 1 column reads, at row `p`, its entry `p`: both have row-major position `p`. -/
theorem cast_col {α : Type} (x : S1024.Idx → α) (h : S1024.ShapeCasts S1024x1) (p : Fin 1024) :
    shapeCast S1024x1 x h (ix2 p (0 : Fin 1)) = x (ix1 p) :=
  shapeCast_apply x h _ _ (by
    rw [Shape.rowMajor_val_two, Shape.rowMajor_val_one]
    show p.val = p.val * 1 + 0
    omega)

/-- A 1024 × 1 column broadcast along its unit axis to 1024 × 1024 reads, at `(p, q)`, the column's row `p`. -/
theorem bcast_col {α : Type} (x : S1024x1.Idx → α) (h : S1024x1.Broadcasts S1024x1024) (p q : Fin 1024) :
    broadcastTo S1024x1024 x h (ix2 p q) = x (ix2 p (0 : Fin 1)) := by
  refine broadcastTo_apply x h (ix2 p q) (ix2 p (0 : Fin 1)) fun ax => ?_
  match ax with
  | ⟨0, _⟩ =>
    show p.val = if (1024 : ℕ) = 1 then 0 else p.val
    rw [if_neg (by decide)]
  | ⟨1, _⟩ =>
    show (0 : ℕ) = if (1 : ℕ) = 1 then 0 else q.val
    rw [if_pos rfl]

/-- A 1 × 1024 row broadcast over 1024 rows reads, at `(p, q)`, the row's entry `q`. -/
theorem bcast_row {α : Type} (x : S1x1024.Idx → α) (h : S1x1024.Broadcasts S1024x1024) (p q : Fin 1024) :
    broadcastTo S1024x1024 x h (ix2 p q) = x (ix2 (0 : Fin 1) q) :=
  broadcastTo_1b_ab_apply x h p q

/-- A 1024 × 1 column transposed to a 1 × 1024 row reads, at `(0, q)`, the column's row `q`. -/
theorem transpose_col {α : Type} (x : S1024x1.Idx → α) (h : S1024x1.Transposes [1, 0] S1x1024) (q : Fin 1024) :
    transpose S1x1024 [1, 0] x h (ix2 (0 : Fin 1) q) = x (ix2 q (0 : Fin 1)) :=
  transpose_ix2_apply x h (0 : Fin 1) q

/-! ## The reductions along the second axis at an index -/

/-- The index of a 1024 × 4 block over row `p` with coordinate `d` put back on the summed axis is `(p, d)`. -/
theorem lift_row4 (h : S1024x4.Reduces [1] S1024) (p : Fin 1024) (d : Fin 4) : h.lift (ix1 p) d = ix2 p d := by
  funext c
  refine Fin.ext ?_
  match c with
  | ⟨0, _⟩ => rfl
  | ⟨1, _⟩ => rfl

/-- The index of a 1024 × 1024 table over row `p` with coordinate `q` put back on the reduced axis is `(p, q)`. -/
theorem lift_row1024 (h : S1024x1024.Reduces [1] S1024) (p : Fin 1024) (q : Fin 1024) : h.lift (ix1 p) q = ix2 p q := by
  funext c
  refine Fin.ext ?_
  match c with
  | ⟨0, _⟩ => rfl
  | ⟨1, _⟩ => rfl

/-- The sum of a 1024 × 4 block along its second axis reads, at row `p`, the sum of that row's four entries. -/
theorem rowsum_apply (v : FVec Ideal S1024x4 .f32) (h : S1024x4.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ d : Fin 4, v (ix2 p d) := by
  refine (Ideal.multiReduction_add_single v _ h hφ hacc (ix1 p)).trans ?_
  exact Finset.sum_congr rfl fun d _ => congrArg v (lift_row4 h p d)

/-- The minimum of a 1024 × 1024 table along its second axis, started at the word `w`, reads, at row `p`, the minimum
    of `w`'s value and that row's 1024 entries. -/
theorem rowmin_apply (v : FVec Ideal S1024x1024 .f32) (w : BitVec 32) (h : S1024x1024.Reduces [1] S1024)
    (hφ : FKind.Formats .f32) (hacc : w = FKind.minimumf.neutral .f32 hφ) (p : Fin 1024) :
    multiReduction (F := Ideal) .minimumf [1] S1024 v w h hφ hacc (ix1 p)
      = (Finset.univ : Finset (Fin 1024)).fold min (Ideal.ofBits .f32 w) (fun q => v (ix2 p q)) := by
  refine (multiReduction_minimumf_eq_fold v w h hφ hacc (ix1 p)).trans ?_
  refine (h.fold_filter_drop_single _ _ v (ix1 p)).trans ?_
  show (Finset.univ : Finset (Fin 1024)).fold min (Ideal.ofBits .f32 w) (v ∘ h.lift (ix1 p)) = _
  exact congrArg (fun f => (Finset.univ : Finset (Fin 1024)).fold min (Ideal.ofBits .f32 w) f)
    (funext fun q => congrArg v (lift_row1024 h p q))

/-! ## The matrix product at an index

The product contracts the second axis of both operands (four coordinates): entry `(p, q)` pairs row `p` of the first
operand with row `q` of the second. The four facts below read the two operand indices coordinate by coordinate. -/

/-- The first operand's index has the contraction coordinate on its second axis. -/
theorem lhs_1 (j : S1024x1024.Idx) (d : Fin 4) :
    ((dot_S1024x4_S1024x4_S1024x1024_1_1_0_0_n_n.lhsIdx j
      ((contrEquiv1 dot_S1024x4_S1024x4_S1024x1024_1_1_0_0_n_n 4 rfl rfl).symm d)) (1 : Fin 2)).val = d.val :=
  (DotDims.lhsIdx_val_of_single dot_S1024x4_S1024x4_S1024x1024_1_1_0_0_n_n (cl := (1 : Fin 2)) rfl j _).trans
    (contrEquiv1_symm_val dot_S1024x4_S1024x4_S1024x1024_1_1_0_0_n_n 4 rfl rfl d)

/-- The second operand's index has the contraction coordinate on its second axis. -/
theorem rhs_1 (j : S1024x1024.Idx) (d : Fin 4) :
    ((dot_S1024x4_S1024x4_S1024x1024_1_1_0_0_n_n.rhsIdx j
      ((contrEquiv1 dot_S1024x4_S1024x4_S1024x1024_1_1_0_0_n_n 4 rfl rfl).symm d)) (1 : Fin 2)).val = d.val :=
  (DotDims.rhsIdx_val_of_single dot_S1024x4_S1024x4_S1024x1024_1_1_0_0_n_n (cr := (1 : Fin 2)) rfl j _).trans
    (contrEquiv1_symm_val dot_S1024x4_S1024x4_S1024x1024_1_1_0_0_n_n 4 rfl rfl d)

/-- The first operand's index has the result's row on its first axis. -/
theorem lhs_0 (p q : Fin 1024) (k : dot_S1024x4_S1024x4_S1024x1024_1_1_0_0_n_n.contr.Idx) :
    ((dot_S1024x4_S1024x4_S1024x1024_1_1_0_0_n_n.lhsIdx (ix2 p q) k) (0 : Fin 2)).val = p.val := by
  unfold DotDims.lhsIdx
  rw [dif_neg (by decide), dif_pos (by decide)]
  rfl

/-- The second operand's index has the result's column on its first axis. -/
theorem rhs_0 (p q : Fin 1024) (k : dot_S1024x4_S1024x4_S1024x1024_1_1_0_0_n_n.contr.Idx) :
    ((dot_S1024x4_S1024x4_S1024x1024_1_1_0_0_n_n.rhsIdx (ix2 p q) k) (0 : Fin 2)).val = q.val := by
  unfold DotDims.rhsIdx
  rw [dif_neg (by decide), dif_pos (by decide)]
  rfl

/-- So the first operand is read at `(p, d)` … -/
theorem lhsIdx_eq (p q : Fin 1024) (d : Fin 4) :
    dot_S1024x4_S1024x4_S1024x1024_1_1_0_0_n_n.lhsIdx (ix2 p q)
      ((contrEquiv1 dot_S1024x4_S1024x4_S1024x1024_1_1_0_0_n_n 4 rfl rfl).symm d) = ix2 p d := by
  funext c
  refine Fin.ext ?_
  match c with
  | ⟨0, _⟩ => exact lhs_0 p q _
  | ⟨1, _⟩ => exact lhs_1 _ d

/-- … and the second at `(q, d)`. -/
theorem rhsIdx_eq (p q : Fin 1024) (d : Fin 4) :
    dot_S1024x4_S1024x4_S1024x1024_1_1_0_0_n_n.rhsIdx (ix2 p q)
      ((contrEquiv1 dot_S1024x4_S1024x4_S1024x1024_1_1_0_0_n_n 4 rfl rfl).symm d) = ix2 q d := by
  funext c
  refine Fin.ext ?_
  match c with
  | ⟨0, _⟩ => exact rhs_0 p q _
  | ⟨1, _⟩ => exact rhs_1 _ d

/-- The product of two 1024 × 4 blocks into a zero accumulator reads, at `(p, q)`, the dot product of row `p` of the
    first with row `q` of the second. -/
theorem cross_apply (a b : FVec Ideal S1024x4 .bf16) (p q : Fin 1024) :
    matmul (F := Ideal) dot_S1024x4_S1024x4_S1024x1024_1_1_0_0_n_n none a b
        (constant (F := Ideal) S1024x1024 .f32 0x00000000#32) (ix2 p q)
      = ∑ d : Fin 4, a (ix2 p d) * b (ix2 q d) := by
  refine (Ideal.matmul_constant_zero_apply dot_S1024x4_S1024x4_S1024x1024_1_1_0_0_n_n none a b (ix2 p q)).trans ?_
  refine (Equiv.sum_comp (contrEquiv1 dot_S1024x4_S1024x4_S1024x1024_1_1_0_0_n_n 4 rfl rfl).symm _).symm.trans ?_
  refine Finset.sum_congr rfl fun d _ => ?_
  rw [lhsIdx_eq p q d, rhsIdx_eq p q d]

/-! ## The two stored values at a row -/

/-- The reset value is +∞ at every row. -/
theorem reset_apply (p : Fin 1024) : (k0_pay1 (F := Ideal)) (ix2 p (0 : Fin 1)) = Cert.Nearest.pinf := by
  unfold k0_pay1
  simp only [shapeCast_self]
  rfl

/-- The update at row p: the smaller of the carried value and the least squared distance from row p of the first block to
    the rows of the second. -/
theorem update_apply (x0 x1 : Vec Ideal S1024x4 .f32) (xs : Vec Ideal S1024x1 .f32) (p : Fin 1024) :
    k0_pay2 (F := Ideal) x0 x1 xs (ix2 p (0 : Fin 1))
      = min (xs (ix2 p (0 : Fin 1))) (Cert.Nearest.nearestTo (M := 1024) x1 (Cert.Nearest.row (n := 1024) x0 p)) := by
  unfold k0_pay2
  simp only [shapeCast_self]
  -- the stored value is the elementwise minimum of the carried column and the column of row minima
  refine (minimumf_apply _ _ _).trans ?_
  refine congrArg (min (xs (ix2 p (0 : Fin 1)))) ?_
  -- the column of row minima at row p is the minimum, from +∞, of row p of the table of squared distances
  refine (cast_col _ _ p).trans ?_
  refine (rowmin_apply _ _ _ _ _ p).trans ?_
  unfold Cert.Nearest.nearestTo
  refine congrArg (fun f => (Finset.univ : Finset (Fin 1024)).fold min Cert.Nearest.pinf f) (funext fun q => ?_)
  -- entry (p, q) of the table is |a_p|² + |b_q|² - 2 (a_p · b_q)
  unfold Cert.Nearest.sqd
  refine (subf_apply _ _ _).trans ?_
  refine congrArg₂ (· - ·) ?_ ?_
  · refine (addf_apply _ _ _).trans ?_
    refine congrArg₂ (· + ·) ?_ ?_
    · -- |a_p|²: the column of row sums of squares of the first block, broadcast along the table's rows
      refine (bcast_col _ _ p q).trans ?_
      refine (cast_col _ _ p).trans ?_
      refine (rowsum_apply _ _ _ _ p).trans ?_
      rfl
    · -- |b_q|²: the same column for the second block, transposed to a row and broadcast down the table's columns
      refine (bcast_row _ _ p q).trans ?_
      refine (transpose_col _ _ q).trans ?_
      refine (cast_col _ _ q).trans ?_
      refine (rowsum_apply _ _ _ _ q).trans ?_
      rfl
  · -- 2 (a_p · b_q): the word 2 times the matrix product's entry; the narrowing of the operands is the identity
    refine (mulf_apply _ _ _).trans ?_
    refine congrArg₂ (· * ·) rfl ?_
    refine (cross_apply _ _ p q).trans ?_
    rfl

end Cert.KernelIdeal.Payload

end
-- ==== Proof.Carried.lean ====
/-
  What the carried column holds after each grid point, and what the output block holds when it is written. Going through the
  column blocks `j = 0, …, 7` of a row block, the carried value at row `p` is bounded below exactly by +∞ and by the squared
  distances from row `1024 (t / 8) + p` of the first cloud to the rows `< 1024 (j + 1)` of the second: the reset starts it at
  +∞ and each update takes the minimum with the distances to the next 1024 rows. After the last column block these are the
  lower bounds of the nearest distance to all 8192 rows, so the block written then holds the nearest distances of its rows.
-/
import proofs.«154969_j63127429316932_1_alg».proof.Proof.Pieces
import proofs.«154969_j63127429316932_1_alg».proof.Proof.Blocks
import proofs.«154969_j63127429316932_1_alg».proof.Proof.Payload

set_option maxRecDepth 16384

noncomputable section

namespace Cert.KernelIdeal.Carried

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.Nearest Cert.KernelIdeal.Blocks

/-- One update step on lower bounds: if `prev` is bounded below exactly by +∞ and the distances from `u` to the rows
    `< 1024 j` of `Barr`, and the block `Bblk` is rows `1024 j + q` of `Barr`, then the minimum of `prev` and the nearest
    distance from `u` to the block's rows is bounded below exactly by +∞ and the distances to the rows `< 1024 (j + 1)`. -/
theorem update_bounds (u : Fin 4 → EReal) (Bblk : (⟨2, ![1024, 4]⟩ : Shape).Idx → EReal) (Barr : (⟨2, ![8192, 4]⟩ : Shape).Idx → EReal)
    (j : ℕ) (hj : j < 8)
    (hrows : ∀ (q : Fin 1024) (r : Fin 8192), r.val = 1024 * j + q.val → row Bblk q = row Barr r)
    (prev x : EReal) (hprev : x ≤ prev ↔ x ≤ pinf ∧ ∀ mm : Fin 8192, mm.val < 1024 * j → x ≤ sqd u (row Barr mm)) :
    x ≤ min prev (nearestTo Bblk u) ↔ x ≤ pinf ∧ ∀ mm : Fin 8192, mm.val < 1024 * (j + 1) → x ≤ sqd u (row Barr mm) := by
  rw [le_min_iff, hprev, le_nearestTo_iff]
  constructor
  · rintro ⟨⟨h1, h2⟩, _, h3⟩
    refine ⟨h1, fun mm hmm => ?_⟩
    by_cases h : mm.val < 1024 * j
    · exact h2 mm h
    · have h4 := h3 ⟨mm.val - 1024 * j, by omega⟩
      rwa [hrows ⟨mm.val - 1024 * j, by omega⟩ mm (by show mm.val = 1024 * j + (mm.val - 1024 * j); omega)] at h4
  · rintro ⟨h1, h2⟩
    refine ⟨⟨h1, fun mm hmm => h2 mm (by omega)⟩, h1, fun q => ?_⟩
    have hq := q.isLt
    rw [hrows q ⟨1024 * j + q.val, by omega⟩ rfl]
    exact h2 _ (by show 1024 * j + q.val < 1024 * (j + 1); omega)

variable (m : (ℓ : Loc nD τ sig) → Buf (Elt Ideal) ℓ)

/-- THE INVARIANT, by induction on the grid point: after point `n` (row block `n / 8`, column block `n % 8`) the carried column at
    row `p` is bounded below exactly by +∞ and by the squared distances from row `1024 (n / 8) + p` of the first cloud to the rows
    `< 1024 (n % 8 + 1)` of the second. -/
theorem carried (c : Dev nD) : ∀ (n : ℕ) (h : n < cfg0.N) (p : Fin 1024) (r : Fin 8192) (hr : r.val = 1024 * (n / 8) + p.val) (x : EReal),
    x ≤ (outsAt0 m c n h).2 (ix2 p (0 : Fin 1)) ↔ x ≤ pinf ∧ ∀ mm : Fin 8192, mm.val < 1024 * (n % 8 + 1) →
      x ≤ sqd (row (n := 8192) (cloudA m c) r) (row (n := 8192) (cloudB m c) mm) := by
  intro n
  induction n with
  | zero =>
    intro h p r hr x
    have hv : (outsAt0 m c 0 h).2 (ix2 p (0 : Fin 1)) = min pinf (nearestTo (M := 1024) (blockB m c ⟨0, h⟩) (row (n := 1024) (blockA m c ⟨0, h⟩) p)) := by
      rw [outsAt0_A m c ⟨0, h⟩ (Nat.zero_mod _) (by show ¬ (0 : ℕ) % 8 = 7; decide)]
      dsimp only
      refine (congrFun (Pieces.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)) (ix2 p (0 : Fin 1))).trans ?_
      rw [Payload.update_apply, Payload.reset_apply]
    rw [hv, row_blockA m c ⟨0, h⟩ p r hr]
    exact update_bounds _ _ (cloudB m c) 0 (by omega) (fun q r' hr' => row_blockB m c ⟨0, h⟩ q r' hr') pinf x
      ⟨fun hx => ⟨hx, fun mm hmm => absurd hmm (by omega)⟩, fun hx => hx.1⟩
  | succ k ih =>
    intro h p r hr x
    have hN : cfg0.N = 64 := N_0
    have hk : k < cfg0.N := Nat.lt_of_succ_lt h
    by_cases h0 : (k + 1) % 8 = 0
    · have h1 : ¬ (k + 1) % 8 = 7 := by omega
      have hv : (outsAt0 m c (k + 1) h).2 (ix2 p (0 : Fin 1)) = min pinf (nearestTo (M := 1024) (blockB m c ⟨k + 1, h⟩) (row (n := 1024) (blockA m c ⟨k + 1, h⟩) p)) := by
        rw [outsAt0_A m c ⟨k + 1, h⟩ h0 h1]
        dsimp only
        refine (congrFun (Pieces.scratch_A (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) scM0_0 (Memref.isWhole_whole _) _ _ (iblk m c 0 ⟨k + 1, h⟩) (iblk m c 1 ⟨k + 1, h⟩)) (ix2 p (0 : Fin 1))).trans ?_
        rw [Payload.update_apply, Payload.reset_apply]
      rw [hv, row_blockA m c ⟨k + 1, h⟩ p r hr, h0]
      exact update_bounds _ _ (cloudB m c) 0 (by omega)
        (fun q r' hr' => row_blockB m c ⟨k + 1, h⟩ q r' (by rw [hr']; show 1024 * 0 + q.val = 1024 * ((k + 1) % 8) + q.val; rw [h0])) pinf x
        ⟨fun hx => ⟨hx, fun mm hmm => absurd hmm (by omega)⟩, fun hx => hx.1⟩
    · have hv : (outsAt0 m c (k + 1) h).2 (ix2 p (0 : Fin 1)) = min ((outsAt0 m c k hk).2 (ix2 p (0 : Fin 1))) (nearestTo (M := 1024) (blockB m c ⟨k + 1, h⟩) (row (n := 1024) (blockA m c ⟨k + 1, h⟩) p)) := by
        by_cases h1 : (k + 1) % 8 = 7
        · rw [outsAt0_C m c ⟨k + 1, h⟩ h0 h1]
          dsimp only
          refine (congrFun (Pieces.scratch_C (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) scM0_0 (Memref.isWhole_whole _) _ _ (iblk m c 0 ⟨k + 1, h⟩) (iblk m c 1 ⟨k + 1, h⟩) (outsAt0 m c k hk).2) (ix2 p (0 : Fin 1))).trans ?_
          rw [Payload.update_apply]
        · rw [outsAt0_B m c ⟨k + 1, h⟩ h0 h1]
          dsimp only
          refine (congrFun (Pieces.scratch_B (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) scM0_0 (Memref.isWhole_whole _) _ _ (iblk m c 0 ⟨k + 1, h⟩) (iblk m c 1 ⟨k + 1, h⟩) (outsAt0 m c k hk).2) (ix2 p (0 : Fin 1))).trans ?_
          rw [Payload.update_apply]
      have hprev := ih hk p r (by rw [hr]; show 1024 * ((k + 1) / 8) + p.val = 1024 * (k / 8) + p.val; omega) x
      rw [hv, row_blockA m c ⟨k + 1, h⟩ p r hr]
      exact update_bounds _ _ (cloudB m c) ((k + 1) % 8) (Nat.mod_lt _ (by decide))
        (fun q r' hr' => row_blockB m c ⟨k + 1, h⟩ q r' hr') _ x
        (by rw [show (k + 1) % 8 = k % 8 + 1 from by omega]; exact hprev)

/-- At the last column block of a row block the output block is stored from the column just updated: the two hold one value, -/
theorem written_eq_carried (c : Dev nD) (t : Fin cfg0.N) (h7 : t.val % 8 = 7) (p : Fin 1024) :
    (outsAt0 m c t.val t.isLt).1 (ix2 p (0 : Fin 1)) = (outsAt0 m c t.val t.isLt).2 (ix2 p (0 : Fin 1)) := by
  have h0 : ¬ t.val % 8 = 0 := by omega
  rw [outsAt0_C m c t h0 h7]
  dsimp only
  exact (congrFun (Pieces.out_C (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2) (ix2 p (0 : Fin 1))).trans
    (congrFun (Pieces.scratch_C (F := Ideal) c (grid0.coords t) (ms0_0 t) (hs0_0 t) (ms0_1 t) (hs0_1 t) (ms0_2 t) (hs0_2 t) scM0_0 (Memref.isWhole_whole _) _ _ (iblk m c 0 t) (iblk m c 1 t) (outsAt0 m c (t.val - 1) (Nat.lt_of_le_of_lt (Nat.sub_le _ _) t.isLt)).2) (ix2 p (0 : Fin 1))).symm

/-- and that value, bounded below exactly by +∞ and the distances to ALL rows of the second cloud, is the nearest squared
    distance from row `1024 (t / 8) + p` of the first cloud to the second. -/
theorem written (c : Dev nD) (t : Fin cfg0.N) (h7 : t.val % 8 = 7) (p : Fin 1024) (r : Fin 8192) (hr : r.val = 1024 * (t.val / 8) + p.val) :
    (outsAt0 m c t.val t.isLt).1 (ix2 p (0 : Fin 1)) = nearestTo (M := 8192) (cloudB m c) (row (n := 8192) (cloudA m c) r) := by
  rw [written_eq_carried m c t h7 p]
  refine eq_nearestTo_of_le_iff _ _ _ fun x => ?_
  rw [carried m c t.val t.isLt p r hr x, h7]
  exact and_congr Iff.rfl ⟨fun h mm => h mm mm.isLt, fun h mm _ => h mm⟩

end Cert.KernelIdeal.Carried
end
-- ==== Proof.Result.lean ====
/-
  The kernel program's result. Each output block is written back once, after the last column block of its row block, and then
  holds the nearest squared distances of its 1024 rows; the eight blocks tile the column of 8192 rows, so after the kernel the
  column holds, at row `n`, the nearest squared distance from row `n` of the first scaled cloud to the second. The host then
  takes the maximum over the column started at -∞, multiplies by the word 1 and reshapes to one element.
-/
import proofs.«154969_j63127429316932_1_alg».proof.Proof.Carried
import Idealize.ShloMosaic.Lib.Pipeline.Value
import Idealize.ShloMosaic.Lib.StableHlo.Run
import Idealize.ShloMosaic.PureOps.Reduce
import Idealize.ShloMosaic.PureOps.Ideal.Laws

set_option maxRecDepth 16384

noncomputable section

namespace Cert.KernelIdeal.Result

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.Nearest Cert.KernelIdeal.Blocks

variable (m : (ℓ : Loc nD τ sig) → Buf (Elt Ideal) ℓ) (ρ : Dev nD → PrngReg)

/-- The column the kernel leaves: at row `n` the nearest squared distance from row `n` of the first cloud to the second. -/
def column (c : Dev nD) : Vec Ideal S8192x1 .f32 :=
  fun i => nearestTo (M := 8192) (cloudB m c) (row (n := 8192) (cloudA m c) ⟨(i 0).val, idx2_lt0 i⟩)

/-- The output window's block index is the point's row block (decided over the 64 points). -/
theorem idxO : ∀ t : Fin cfg0.N, win0_2.index t 0 = t.val / 8 ∧ win0_2.index t 1 = 0 :=
  (by decide +kernel : ∀ t : Fin grid0.N, win0_2.index t 0 = t.val / 8 ∧ win0_2.index t 1 = 0)

/-- WHAT A WRITING POINT WRITES BACK: the block of the column of nearest distances at its row block. -/
theorem flushed_eq (c : Dev nD) (t : Fin cfg0.N) (hf : (cfg0.win 2).flush t = true) :
    (dats m 0 c).flushed 2 t = ((cfg0.win 2).blk t).view.read (Elt Ideal) (column m c) := by
  have h7 : t.val % 8 = 7 := (flush0_2 t).mp hf
  show (cfg0.win 2).cut (grid0.coords t) ((dats m 0 c).after 2 t) = _
  rw [after0_2]
  funext y
  show (outsAt0 m c t.val t.isLt).1 y = column m c (((cfg0.win 2).blk t).view.emb y)
  have hy0 : (y 0).val < 1024 := (y 0).isLt
  have hy1 : (y 1).val < 1 := (y 1).isLt
  have e : (y : S1024x1.Idx) = ix2 (⟨(y 0).val, hy0⟩ : Fin 1024) (0 : Fin 1) := funext fun a => Fin.ext (by
    match a with
    | ⟨0, _⟩ => rfl
    | ⟨1, _⟩ => show (y 1).val = 0; omega)
  have hr : (((cfg0.win 2).blk t).view.emb y 0).val = 1024 * (t.val / 8) + (y 0).val := by
    show win0_2.index t 0 * 1024 + 1 * (y 0).val = _
    rw [(idxO t).1]; omega
  exact (congrArg (outsAt0 m c t.val t.isLt).1 e).trans (Carried.written m c t h7 ⟨(y 0).val, hy0⟩ ⟨_, idx2_lt0 _⟩ hr)

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v6).slice (win0_2.rect t)).set ↔ _
  rw [View.set_slice_whole, Rect.mem_set_unit]
  exact Iff.rfl

/-- The column after the kernel: row `n` lies in the block written at the last column block of row block `n / 1024`, so the
    eight written blocks cover the column and it holds the nearest distances. -/
theorem final (c : Dev nD) : (dats m 0 c).arrAt 2 cfg0.N = column m c :=
  (dats m 0 c).arrAt_eq_of_cover 2 (column m c) (flushed_eq m c) fun i => by
    have hi0 : (i 0).val < 8192 := (i 0).isLt
    have hi1 : (i 1).val < 1 := (i 1).isLt
    have hN : cfg0.N = 64 := N_0
    refine ⟨⟨8 * ((i 0).val / 1024) + 7, by rw [hN]; omega⟩, (flush0_2 _).mpr (by show (8 * ((i 0).val / 1024) + 7) % 8 = 7; omega), ?_⟩
    rw [mem_blk]
    intro a
    match a with
    | ⟨0, _⟩ =>
      show win0_2.index _ 0 * 1024 ≤ (i 0).val ∧ (i 0).val < win0_2.index _ 0 * 1024 + 1024
      rw [(idxO _).1]
      show (8 * ((i 0).val / 1024) + 7) / 8 * 1024 ≤ (i 0).val ∧ (i 0).val < (8 * ((i 0).val / 1024) + 7) / 8 * 1024 + 1024
      omega
    | ⟨1, _⟩ =>
      show win0_2.index _ 1 * 1 ≤ (i 1).val ∧ (i 1).val < win0_2.index _ 1 * 1 + 1
      rw [(idxO _).2]
      omega

/-- The host's last three operations on any column: its maximum started at -∞, times the word 1, as one element. -/
theorem tail_apply (X : Vec Ideal S8192x1 .f32) (j : S1.Idx) :
    shapeCast S1 (mulf (Host.reduce (FloatOps.maximumf (F := Ideal) (φ := .f32)) X (constant (F := Ideal) S_ .f32 0xFF800000#32) Facts₀.reducesTo_S8192x1_S_d0_1 Facts₀.h_S_)
        (constant (F := Ideal) S_ .f32 0x3F800000#32)) Facts₀.shapeCasts_S_S1 j
      = (Finset.univ : Finset S8192x1.Idx).fold max ninf X * one := by
  have h0 : (S_.rowMajor ix0).val < 1 := (S_.rowMajor ix0).isLt
  have h1 : (S1.rowMajor j).val < 1 := (S1.rowMajor j).isLt
  rw [shapeCast_apply _ Facts₀.shapeCasts_S_S1 j ix0 (by omega), mulf_apply, constant_apply,
    Host.reduce_eq_fold (FloatOps.maximumf (F := Ideal) (φ := .f32)) X _ Facts₀.reducesTo_S8192x1_S_d0_1 Facts₀.h_S_ ix0,
    Finset.filter_true_of_mem (fun i _ => funext fun a => a.elim0)]
  rfl

/-- The result buffer after the host's last operations: the largest nearest distance times the word 1. -/
theorem tail_eq (c : Dev nD) :
    Pipeline.afterTail₀ cfgs (dats m) 0 (V0 m) [hostOps1] c main_v9 = result (N := 8192) (M := 8192) (cloudA m c) (cloudB m c) := by
  unfold Pipeline.afterTail₀
  show StableHlo.after hostOps1 _ (Proc.devRef .tc main_v9) = _
  after_results
  have hX : Pipeline.withArrays (cfgs 0).spec c (V0 m c) (fun w => (dats m 0 c).arrAt w (cfgs 0).N) (Proc.devRef .tc main_v6) = column m c :=
    (Pipeline.withArrays_arr spec0 launch0.win.arr_inj c _ _ 2).trans (final m c)
  rw [hX]
  funext j
  refine (tail_apply (column m c) j).trans ?_
  unfold result
  refine congrArg (· * one) ?_
  exact fold_max_eq_farthestNearest (cloudA m c) (cloudB m c) (column m c) (fun i => ⟨(i 0).val, idx2_lt0 i⟩) (fun i => rfl)
    (fun n => ⟨ix2 n (0 : Fin 1), Fin.ext rfl⟩)

/-- The run, read: every weakly fair execution of the kernel program ends with the result at the one-sided squared Hausdorff
    distance of the two scaled inputs times the word 1, and the inputs unchanged. -/
theorem run : θ_run (defs (F := Ideal)) (onTc (τ := τ) (main (F := Ideal))) ⟨m, fun _ => 0, ρ⟩ (fun r => ∀ c : Dev nD,
      r.2.mem ((c.tc : Thread nD τ).loc main_v9)
          = result (N := 8192) (M := 8192) (weighted (n := 8192) (m ((c.tc : Thread nD τ).loc main_arg0)))
              (weighted (n := 8192) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans
        ((tail_eq m c).trans (by rw [cloudA_eq, cloudB_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result
end
-- ==== Proof.RefRun.lean ====
/-
  The reference program is a straight line of 30 host operations with no kernel. Its run, for any float values: every weakly
  fair execution terminates with the result buffer at one pure term of the two arguments' launch contents, and the arguments
  unchanged. The term is written stage by stage: both clouds scaled channel by channel by a constant row, the rows' sums of
  squares, the matrix of the rows' dot products, the matrix |a|² + |b|² - 2 (a · b), its row minima from +∞, their maximum
  from -∞, that number times 1, read as a one-element vector.
-/
import proofs.«154969_j63127429316932_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 30 operations, in order. -/
abbrev ops : List (HloOp τ sig (Elt F)) :=
  [ nullary main_cst (fun i => FloatOps.ofBits .f32 (lit0 (S4.rowMajor i))),
    unary main_cst main_v0 (broadcastInDim S1x4 ![1] bcast_S4_S1x4_1 : (⟨S4, .f32⟩ : BufTy).Contents (Elt F) → (⟨S1x4, .f32⟩ : BufTy).Contents (Elt F)),
    unary main_v0 main_v1 (broadcastInDim S8192x4 ![0, 1] bcast_S1x4_S8192x4_0_1 : (⟨S1x4, .f32⟩ : BufTy).Contents (Elt F) → (⟨S8192x4, .f32⟩ : BufTy).Contents (Elt F)),
    binary main_arg0 main_v1 main_v2 (mulf : (⟨S8192x4, .f32⟩ : BufTy).Contents (Elt F) → (⟨S8192x4, .f32⟩ : BufTy).Contents (Elt F) → (⟨S8192x4, .f32⟩ : BufTy).Contents (Elt F)),
    unary main_cst main_v3 (broadcastInDim S1x4 ![1] bcast_S4_S1x4_1 : (⟨S4, .f32⟩ : BufTy).Contents (Elt F) → (⟨S1x4, .f32⟩ : BufTy).Contents (Elt F)),
    unary main_v3 main_v4 (broadcastInDim S8192x4 ![0, 1] bcast_S1x4_S8192x4_0_1 : (⟨S1x4, .f32⟩ : BufTy).Contents (Elt F) → (⟨S8192x4, .f32⟩ : BufTy).Contents (Elt F)),
    binary main_arg1 main_v4 main_v5 (mulf : (⟨S8192x4, .f32⟩ : BufTy).Contents (Elt F) → (⟨S8192x4, .f32⟩ : BufTy).Contents (Elt F) → (⟨S8192x4, .f32⟩ : BufTy).Contents (Elt F)),
    binary main_v2 main_v2 main_v6 (mulf : (⟨S8192x4, .f32⟩ : BufTy).Contents (Elt F) → (⟨S8192x4, .f32⟩ : BufTy).Contents (Elt F) → (⟨S8192x4, .f32⟩ : BufTy).Contents (Elt F)),
    nullary main_cst_0 (constant S_ .f32 0x00000000#32),
    binary main_v6 main_cst_0 main_v7 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    binary main_v5 main_v5 main_v8 (mulf : (⟨S8192x4, .f32⟩ : BufTy).Contents (Elt F) → (⟨S8192x4, .f32⟩ : BufTy).Contents (Elt F) → (⟨S8192x4, .f32⟩ : BufTy).Contents (Elt F)),
    nullary main_cst_1 (constant S_ .f32 0x00000000#32),
    binary main_v8 main_cst_1 main_v9 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    binary main_v2 main_v5 main_v10 ((fun l r => Host.dotGeneral dot_S8192x4_S8192x4_S8192x8192_1_1_0_0_n_n none l r) : (⟨S8192x4, .f32⟩ : BufTy).Contents (Elt F) → (⟨S8192x4, .f32⟩ : BufTy).Contents (Elt F) → (⟨S8192x8192, .f32⟩ : BufTy).Contents (Elt F)),
    unary main_v7 main_v11 (broadcastInDim S8192x1 ![0] bcast_S8192_S8192x1_0 : (⟨S8192, .f32⟩ : BufTy).Contents (Elt F) → (⟨S8192x1, .f32⟩ : BufTy).Contents (Elt F)),
    unary main_v9 main_v12 (broadcastInDim S1x8192 ![1] bcast_S8192_S1x8192_1 : (⟨S8192, .f32⟩ : BufTy).Contents (Elt F) → (⟨S1x8192, .f32⟩ : BufTy).Contents (Elt F)),
    unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x40000000#32),
    unary main_cst_2 main_v16 (broadcastInDim S8192x8192 ![] bcast_S_S8192x8192 : (⟨S_, .f32⟩ : BufTy).Contents (Elt F) → (⟨S8192x8192, .f32⟩ : BufTy).Contents (Elt F)),
    binary main_v16 main_v10 main_v17 (mulf : (⟨S8192x8192, .f32⟩ : BufTy).Contents (Elt F) → (⟨S8192x8192, .f32⟩ : BufTy).Contents (Elt F) → (⟨S8192x8192, .f32⟩ : BufTy).Contents (Elt F)),
    binary main_v15 main_v17 main_v18 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x7F800000#32),
    binary main_v18 main_cst_3 main_v19 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    binary main_v19 main_cst_4 main_v20 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_5 (constant S_ .f32 0x3F800000#32),
    binary main_v20 main_cst_5 main_v21 (mulf : (⟨S_, .f32⟩ : BufTy).Contents (Elt F) → (⟨S_, .f32⟩ : BufTy).Contents (Elt F) → (⟨S_, .f32⟩ : BufTy).Contents (Elt F)),
    reshape main_v21 main_v22 rfl shapeCasts_S_S1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., reshape_bufs_sub ..⟩

/-! ## The term, stage by stage -/

/-- The constant row of channel weights, as an 8192 × 4 matrix: the 4 literal words, made a 1 × 4 row, repeated down the rows. -/
def weights : (⟨S8192x4, .f32⟩ : BufTy).Contents (Elt F) :=
  broadcastInDim S8192x4 ![0, 1] bcast_S1x4_S8192x4_0_1
    (broadcastInDim S1x4 ![1] bcast_S4_S1x4_1 (fun i => FloatOps.ofBits .f32 (lit0 (S4.rowMajor i))))

/-- A cloud scaled entry by entry by the weights. -/
def scaled (X : (⟨S8192x4, .f32⟩ : BufTy).Contents (Elt F)) : (⟨S8192x4, .f32⟩ : BufTy).Contents (Elt F) := mulf X weights

/-- The rows' sums of squares: the entrywise square summed along axis 1 from the constant 0. -/
def sumSq (Y : (⟨S8192x4, .f32⟩ : BufTy).Contents (Elt F)) : (⟨S8192, .f32⟩ : BufTy).Contents (Elt F) :=
  Host.reduceAdd (mulf Y Y) (constant S_ .f32 0x00000000#32) reducesTo_S8192x4_S8192_d1 h_S_

/-- The matrix of dot products of the rows of `L` with the rows of `R`. -/
def dots (L R : (⟨S8192x4, .f32⟩ : BufTy).Contents (Elt F)) : (⟨S8192x8192, .f32⟩ : BufTy).Contents (Elt F) :=
  Host.dotGeneral dot_S8192x4_S8192x4_S8192x8192_1_1_0_0_n_n none L R

/-- A vector repeated along the columns: entry (n, m) is `s n`. -/
def alongRows (s : (⟨S8192, .f32⟩ : BufTy).Contents (Elt F)) : (⟨S8192x8192, .f32⟩ : BufTy).Contents (Elt F) :=
  broadcastInDim S8192x8192 ![0, 1] bcast_S8192x1_S8192x8192_0_1 (broadcastInDim S8192x1 ![0] bcast_S8192_S8192x1_0 s)

/-- A vector repeated along the rows: entry (n, m) is `s m`. -/
def alongCols (s : (⟨S8192, .f32⟩ : BufTy).Contents (Elt F)) : (⟨S8192x8192, .f32⟩ : BufTy).Contents (Elt F) :=
  broadcastInDim S8192x8192 ![0, 1] bcast_S1x8192_S8192x8192_0_1 (broadcastInDim S1x8192 ![1] bcast_S8192_S1x8192_1 s)

/-- The matrix of expanded squared distances: (|Lₙ|² + |Rₘ|²) - 2 (Lₙ · Rₘ). -/
def dist (L R : (⟨S8192x4, .f32⟩ : BufTy).Contents (Elt F)) : (⟨S8192x8192, .f32⟩ : BufTy).Contents (Elt F) :=
  subf (addf (alongRows (sumSq L)) (alongCols (sumSq R)))
    (mulf (broadcastInDim S8192x8192 ![] bcast_S_S8192x8192 (constant S_ .f32 0x40000000#32)) (dots L R))

/-- Each row's minimum, started at +∞. -/
def nearest (L R : (⟨S8192x4, .f32⟩ : BufTy).Contents (Elt F)) : (⟨S8192, .f32⟩ : BufTy).Contents (Elt F) :=
  Host.reduce FloatOps.minimumf (dist L R) (constant S_ .f32 0x7F800000#32) reducesTo_S8192x8192_S8192_d1 h_S_

/-- The maximum of the rows' minima, started at -∞. -/
def farthest (L R : (⟨S8192x4, .f32⟩ : BufTy).Contents (Elt F)) : (⟨S_, .f32⟩ : BufTy).Contents (Elt F) :=
  Host.reduce FloatOps.maximumf (nearest L R) (constant S_ .f32 0xFF800000#32) reducesTo_S8192_S_d0 h_S_

/-- What @main returns, of its two arguments: the maximum of minima of the scaled clouds, times the constant 1, as a
    one-element vector. -/
def refTerm (a0 a1 : (⟨S8192x4, .f32⟩ : BufTy).Contents (Elt F)) : (⟨S1, .f32⟩ : BufTy).Contents (Elt F) :=
  shapeCast S1 (mulf (farthest (scaled a0) (scaled a1)) (constant S_ .f32 0x3F800000#32)) shapeCasts_S_S1

/-- On every device, for any float values, from any memory with zero counters: every weakly fair execution of @main
    terminates with the result at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
/-
  The reference program's result term, read over the extended reals, is the shared mathematics: the one-sided squared Hausdorff
  distance of the two clouds scaled by the channel weights, times the word 1. Each stage of the term is read at an index:
  the weight matrix is the weight of its column; a row's sum of squares is a sum over 4 channels; the product matrix holds the
  rows' dot products; the two repeated vectors give |a|² at (n, ·) and |b|² at (·, m); so the distance matrix at (n, m) is
  the expanded squared distance of row n and row m; a row's minimum from +∞ is the nearest distance of that row; the maximum
  from -∞ of those is the largest nearest distance.
-/
import proofs.«154969_j63127429316932_1_alg».proof.Proof.RefRun
import proofs.«154969_j63127429316932_1_alg».proof.Proof.Nearest
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx Idealize.SL.Sem

/-! ## The scaled clouds -/

/-- The literal table read in row-major order is the table of channel weights. -/
theorem lit0_rowMajor (d : Fin 4) : lit0 (S4.rowMajor (ix1 d)) = Cert.Nearest.weightWord d := by
  fin_cases d <;> rfl

/-- The weight matrix at (n, d) is channel d's weight: both broadcasts only repeat the 4 literal words. -/
theorem weights_apply (n : Fin 8192) (d : Fin 4) :
    weights (F := Ideal) (ix2 n d) = Ideal.ofBits .f32 (Cert.Nearest.weightWord d) := by
  unfold weights
  refine (broadcastInDim_apply _ _ _ (ix2 n d) (ix2 (0 : Fin 1) d) ?_).trans ?_
  · intro a; fin_cases a <;> rfl
  refine (broadcastInDim_apply _ _ _ (ix2 (0 : Fin 1) d) (ix1 d) ?_).trans ?_
  · intro a; fin_cases a; rfl
  exact congrArg (Ideal.ofBits .f32) (lit0_rowMajor d)

/-- A cloud times the weight matrix is the cloud with every row scaled by the channel weights. -/
theorem scaled_eq (X : S8192x4.Idx → EReal) : scaled (F := Ideal) X = Cert.Nearest.weighted (n := 8192) X := by
  funext j
  obtain ⟨n, d, rfl⟩ : ∃ (n : Fin 8192) (d : Fin 4), j = ix2 n d := ⟨j 0, j 1, eq_ix2 j⟩
  unfold scaled Cert.Nearest.weighted
  rw [mulf_apply, weights_apply]

/-! ## The rows' sums of squares -/

/-- Dropping axis 1 of an 8192 × 4 index leaves its row. -/
theorem reduces_rows : S8192x4.Reduces [1] S8192 := by decide

/-- Row n's index with channel d inserted on axis 1 is (n, d). -/
theorem lift_rows (n : Fin 8192) (d : Fin 4) : reduces_rows.lift (ix1 n) d = ix2 n d := by
  funext c
  fin_cases c <;> exact Fin.ext rfl

/-- A row's sum of squares: the constant 0 plus the sum over the 4 channels of the entry squared. -/
theorem sumSq_apply (Y : S8192x4.Idx → EReal) (n : Fin 8192) :
    sumSq (F := Ideal) Y (ix1 n) = ∑ d : Fin 4, Y (ix2 n d) * Y (ix2 n d) := by
  unfold sumSq Host.reduceAdd
  refine (Ideal.hostReduceAdd_single reducesTo_S8192x4_S8192_d1 reduces_rows _ _ (ix1 n)).trans ?_
  rw [constant_apply, Ideal.ofBits_zero_f32, zero_add]
  show (∑ k : Fin 4, _) = _
  exact Finset.sum_congr rfl fun d _ => by rw [lift_rows, mulf_apply]

/-! ## The repeated vectors and the constant 2 -/

/-- A vector repeated along the columns reads its row's entry. -/
theorem alongRows_apply (s : S8192.Idx → EReal) (n m : Fin 8192) : alongRows (F := Ideal) s (ix2 n m) = s (ix1 n) := by
  unfold alongRows
  refine (broadcastInDim_apply _ _ _ (ix2 n m) (ix2 n (0 : Fin 1)) ?_).trans ?_
  · intro a; fin_cases a <;> rfl
  refine (broadcastInDim_apply _ _ _ (ix2 n (0 : Fin 1)) (ix1 n) ?_).trans rfl
  intro a; fin_cases a; rfl

/-- A vector repeated along the rows reads its column's entry. -/
theorem alongCols_apply (s : S8192.Idx → EReal) (n m : Fin 8192) : alongCols (F := Ideal) s (ix2 n m) = s (ix1 m) := by
  unfold alongCols
  refine (broadcastInDim_apply _ _ _ (ix2 n m) (ix2 (0 : Fin 1) m) ?_).trans ?_
  · intro a; fin_cases a <;> rfl
  refine (broadcastInDim_apply _ _ _ (ix2 (0 : Fin 1) m) (ix1 m) ?_).trans rfl
  intro a; fin_cases a; rfl

/-- The constant 2 repeated over the whole matrix reads 2 everywhere. -/
theorem twos_apply (n m : Fin 8192) :
    broadcastInDim S8192x8192 ![] bcast_S_S8192x8192 (constant (F := Ideal) S_ .f32 0x40000000#32) (ix2 n m) = Cert.Nearest.two := by
  refine (broadcastInDim_apply _ _ _ (ix2 n m) ix0 ?_).trans rfl
  intro a; exact a.elim0

/-! ## The product matrix -/

/-- The dot product contracts one axis, of extent 4: its contraction indices are the 4 channels. -/
abbrev chan : dot_S8192x4_S8192x4_S8192x8192_1_1_0_0_n_n.contr.Idx ≃ Fin 4 := contrEquiv1 dot_S8192x4_S8192x4_S8192x8192_1_1_0_0_n_n 4 rfl rfl

/-- At output (n, m) the left operand is read in row n, -/
theorem dots_lhs_0 (n m : Fin 8192) (k : dot_S8192x4_S8192x4_S8192x8192_1_1_0_0_n_n.contr.Idx) :
    (dot_S8192x4_S8192x4_S8192x8192_1_1_0_0_n_n.lhsIdx (ix2 n m) k (0 : Fin 2)).val = n.val := by
  unfold DotDims.lhsIdx
  rw [dif_neg (by decide), dif_pos (by decide)]
  rfl

/-- at the contracted channel; -/
theorem dots_lhs_1 (n m : Fin 8192) (d : Fin 4) :
    (dot_S8192x4_S8192x4_S8192x8192_1_1_0_0_n_n.lhsIdx (ix2 n m) (chan.symm d) (1 : Fin 2)).val = d.val :=
  (dot_S8192x4_S8192x4_S8192x8192_1_1_0_0_n_n.lhsIdx_val_of_single (cl := (1 : Fin 2)) rfl (ix2 n m) (chan.symm d)).trans
    (contrEquiv1_symm_val dot_S8192x4_S8192x4_S8192x8192_1_1_0_0_n_n 4 rfl rfl d)

/-- the right operand in row m, -/
theorem dots_rhs_0 (n m : Fin 8192) (k : dot_S8192x4_S8192x4_S8192x8192_1_1_0_0_n_n.contr.Idx) :
    (dot_S8192x4_S8192x4_S8192x8192_1_1_0_0_n_n.rhsIdx (ix2 n m) k (0 : Fin 2)).val = m.val := by
  unfold DotDims.rhsIdx
  rw [dif_neg (by decide), dif_pos (by decide)]
  rfl

/-- at the same channel. -/
theorem dots_rhs_1 (n m : Fin 8192) (d : Fin 4) :
    (dot_S8192x4_S8192x4_S8192x8192_1_1_0_0_n_n.rhsIdx (ix2 n m) (chan.symm d) (1 : Fin 2)).val = d.val :=
  (dot_S8192x4_S8192x4_S8192x8192_1_1_0_0_n_n.rhsIdx_val_of_single (cr := (1 : Fin 2)) rfl (ix2 n m) (chan.symm d)).trans
    (contrEquiv1_symm_val dot_S8192x4_S8192x4_S8192x8192_1_1_0_0_n_n 4 rfl rfl d)

theorem dots_lhsIdx (n m : Fin 8192) (d : Fin 4) : dot_S8192x4_S8192x4_S8192x8192_1_1_0_0_n_n.lhsIdx (ix2 n m) (chan.symm d) = ix2 n d := by
  funext a
  apply Fin.ext
  match a with
  | ⟨0, _⟩ => exact dots_lhs_0 n m _
  | ⟨1, _⟩ => exact dots_lhs_1 n m d

theorem dots_rhsIdx (n m : Fin 8192) (d : Fin 4) : dot_S8192x4_S8192x4_S8192x8192_1_1_0_0_n_n.rhsIdx (ix2 n m) (chan.symm d) = ix2 m d := by
  funext a
  apply Fin.ext
  match a with
  | ⟨0, _⟩ => exact dots_rhs_0 n m _
  | ⟨1, _⟩ => exact dots_rhs_1 n m d

/-- The product matrix at (n, m) is the dot product of row n of `L` with row m of `R`. -/
theorem dots_apply (L R : S8192x4.Idx → EReal) (n m : Fin 8192) :
    dots (F := Ideal) L R (ix2 n m) = ∑ d : Fin 4, L (ix2 n d) * R (ix2 m d) := by
  unfold dots
  simp only [Host.dotGeneral]
  refine (Ideal.dotGeneral_apply _ _ _ _ _ (ix2 n m)).trans ?_
  refine (Equiv.sum_comp chan.symm _).symm.trans ?_
  exact Finset.sum_congr rfl fun d _ => by rw [dots_lhsIdx, dots_rhsIdx]

/-! ## The distance matrix -/

/-- The distance matrix at (n, m) is the expanded squared distance of row n of `L` and row m of `R`. -/
theorem dist_apply (L R : S8192x4.Idx → EReal) (n m : Fin 8192) :
    RefRun.dist (F := Ideal) L R (ix2 n m) = Cert.Nearest.sqd (Cert.Nearest.row L n) (Cert.Nearest.row R m) := by
  unfold RefRun.dist
  rw [subf_apply, addf_apply, mulf_apply, alongRows_apply, alongCols_apply, sumSq_apply, sumSq_apply, dots_apply, twos_apply]
  rfl

/-! ## The minima and their maximum -/

/-- Dropping axis 1 of an 8192 × 8192 index leaves its row. -/
theorem reduces_cols : S8192x8192.Reduces [1] S8192 := by decide

/-- Row n's index with column m inserted on axis 1 is (n, m). -/
theorem lift_cols (n m : Fin 8192) : reduces_cols.lift (ix1 n) m = ix2 n m := by
  funext c
  fin_cases c <;> exact Fin.ext rfl

/-- Row n's minimum from +∞ over the columns is the nearest distance from row n of `L` to the rows of `R`: the two are the
    same fold of `min` from +∞ over the 8192 columns, entry by entry. -/
theorem nearest_apply (L R : S8192x4.Idx → EReal) (n : Fin 8192) :
    nearest (F := Ideal) L R (ix1 n) = Cert.Nearest.nearestTo R (Cert.Nearest.row L n) := by
  unfold nearest
  refine (Host.reduce_eq_fold_single (FloatOps.minimumf (F := Ideal) (φ := .f32)) _ _ reducesTo_S8192x8192_S8192_d1 reduces_cols
    h_S_ (ix1 n)).trans ?_
  unfold Cert.Nearest.nearestTo
  show (Finset.univ : Finset (Fin 8192)).fold min Cert.Nearest.pinf _ = _
  exact Finset.fold_congr fun m _ => by
    show RefRun.dist (F := Ideal) L R (reduces_cols.lift (ix1 n) m) = _
    rw [lift_cols, dist_apply]

/-- The maximum from -∞ of the rows' minima is the largest nearest distance: every index of the vector drops to the one empty
    index, so the reduction is the fold of `max` from -∞ over all of them, each row met once. -/
theorem farthest_apply (L R : S8192x4.Idx → EReal) :
    farthest (F := Ideal) L R ix0 = Cert.Nearest.farthestNearest L R := by
  unfold farthest
  refine (Host.reduce_eq_fold (FloatOps.maximumf (F := Ideal) (φ := .f32)) _ _ reducesTo_S8192_S_d0 h_S_ ix0).trans ?_
  rw [Finset.filter_true_of_mem (fun i _ => eq_ix0 _)]
  exact Cert.Nearest.fold_max_eq_farthestNearest L R _ (fun i : S8192.Idx => (i 0 : Fin 8192))
    (fun i => by
      obtain ⟨n, rfl⟩ : ∃ n : Fin 8192, i = ix1 n := ⟨i 0, eq_ix1 i⟩
      exact nearest_apply L R n)
    (fun n => ⟨ix1 n, rfl⟩)

/-! ## The whole term -/

/-- The program's term of its two arguments is the shared result of the two scaled clouds: a rank-0 value read as a
    one-element vector holds that value at its one index. -/
theorem refTerm_eq (a0 a1 : S8192x4.Idx → EReal) :
    refTerm (F := Ideal) a0 a1
      = Cert.Nearest.result (N := 8192) (M := 8192) (Cert.Nearest.weighted (n := 8192) a0) (Cert.Nearest.weighted (n := 8192) a1) := by
  funext j
  unfold refTerm Cert.Nearest.result
  refine (shapeCast_apply _ _ j ix0 ?_).trans ?_
  · show (S_.rowMajor ix0).val = (S1.rowMajor j).val
    have h0 : (S_.rowMajor ix0).val < 1 := lt_of_lt_of_eq (S_.rowMajor ix0).isLt (by decide)
    have h1 : (S1.rowMajor j).val < 1 := lt_of_lt_of_eq (S1.rowMajor j).isLt (by decide)
    omega
  rw [mulf_apply, farthest_apply, scaled_eq, scaled_eq]
  rfl

end Cert.ReferenceIdeal.RefValue

namespace Cert.ReferenceIdeal.RefValue

open Cert.ReferenceIdeal Cert.ReferenceIdeal.Gen Idealize.ShloMosaic Idealize.ShloMosaic.TcCoe Idealize.SL.Sem Idealize.ShloMosaic.StableHlo

/-- Over the extended reals, on every device, from any memory with zero counters: every weakly fair execution of the
    reference program terminates with its result at the shared result of the two arguments scaled by the channel weights,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
          = Cert.Nearest.result (N := 8192) (M := 8192) (Cert.Nearest.weighted (n := 8192) (m ((c.tc : Thread nD τ).loc main_arg0)))
              (Cert.Nearest.weighted (n := 8192) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (refTerm_eq _ _), (h c).2.1, (h c).2.2⟩) (RefRun.run m ρ)

end Cert.ReferenceIdeal.RefValue

end
-- ==== Proof.lean ====
/-
  The kernel computes the one-sided squared Hausdorff distance of two clouds of 8192 four-channel points: both clouds are
  scaled channel by channel by (1, 1, 1, 1/2); for each 1024 × 1024 tile of the table of squared distances
  `|a|² + |b|² - 2 (a · b)` the kernel takes each row's minimum and folds it into a column carried across the eight column
  blocks of a row block (reset to +∞ at the first, written out after the last); the host takes the maximum of the resulting
  column of nearest distances, started at -∞, times 1. The reference forms the whole 8192 × 8192 table at once, takes each
  row's minimum and then the maximum. Over the extended reals a format change is the identity and a matrix product into a zero
  accumulator is the plain sum of products, so both programs compute the same squared distances; a minimum is characterised
  by its lower bounds, so the minimum taken block by block is the minimum over all rows; and the two maxima have the same
  upper bounds. No law used needs the inputs finite: only the grouping of minima, maxima and sums differs.

  The three frames: the two kernel programs' are their generated frame runs; the reference's is its run (written out
  operation by operation) with the result dropped. The ideal pass rewrote nothing, so `preserves` asks nothing. For
  `algebraic` both runs are stated with one and the same result term, `Cert.Nearest.result` of the two scaled inputs.
-/
import proofs.«154969_j63127429316932_1_alg».proof.Defs
import proofs.«154969_j63127429316932_1_alg».proof.Proof.Gen.Kernel
import proofs.«154969_j63127429316932_1_alg».proof.Proof.Gen.Kernel.Frame
import proofs.«154969_j63127429316932_1_alg».proof.Proof.Gen.KernelIdeal
import proofs.«154969_j63127429316932_1_alg».proof.Proof.Gen.KernelIdeal.Frame
import proofs.«154969_j63127429316932_1_alg».proof.Proof.Gen.ReferenceIdeal
import proofs.«154969_j63127429316932_1_alg».proof.Proof.Gen.Pre_finite_inputs
import proofs.«154969_j63127429316932_1_alg».proof.Proof.Result
import proofs.«154969_j63127429316932_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the one-sided squared Hausdorff distance of the scaled inputs, times the word 1: from memories
    agreeing on the inputs the two result terms are one term. -/
theorem algebraic : Cert.algebraic_KernelIdeal_ReferenceIdeal := by
  intro m ρ m' ρ' _ hagree
  refine ⟨fun c => Cert.Nearest.result (N := 8192) (M := 8192)
      (Cert.Nearest.weighted (n := 8192) (m ((c.tc : Thread Cert.KernelIdeal.nD Cert.KernelIdeal.τ).loc Cert.KernelIdeal.main_arg0)))
      (Cert.Nearest.weighted (n := 8192) (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
